-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S2x4096x1024 .f32) (main_arg1 : FVec F S4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S2x4096x1024 : Shape := ⟨3, ![2, 4096, 1024]⟩
abbrev S4096x1024 : Shape := ⟨2, ![4096, 1024]⟩
abbrev S1024x4096 : Shape := ⟨2, ![1024, 4096]⟩
abbrev S1x512x1024 : Shape := ⟨3, ![1, 512, 1024]⟩
abbrev S1x8x1024 : Shape := ⟨3, ![1, 8, 1024]⟩
abbrev S8x1024 : Shape := ⟨2, ![8, 1024]⟩
abbrev S512x1024 : Shape := ⟨2, ![512, 1024]⟩
abbrev S520x1024 : Shape := ⟨2, ![520, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x4096, .bf16⟩
  | .local _ .vmem, ⟨5, _⟩ => ⟨S1x512x1024, .f32⟩
  | .local _ .vmem, ⟨6, _⟩ => ⟨S1x512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x1024_S1024x4096_1_0 : S4096x1024.Transposes [1, 0] S1024x4096
  bitsLt_bf16_f32 : FTy.bits .bf16 < FTy.bits .f32
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  concatenates_S8x1024_S512x1024_S520x1024_d0 : Shape.Concatenates [S8x1024, S512x1024] S520x1024 0
  slices_S520x1024_o8_0_S512x1024 : S520x1024.Slices ![8, 0] S512x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  slices_S520x1024_o7_0_S512x1024 : S520x1024.Slices ![7, 0] S512x1024
  inb_S1024x4096_S1024x1024_0_1024 : ∀ a, (![0, 1024] : Fin 2 → Nat) a + S1024x1024.size a ≤ S1024x4096.size a
  slices_S520x1024_o6_0_S512x1024 : S520x1024.Slices ![6, 0] S512x1024
  inb_S1024x4096_S1024x1024_0_2048 : ∀ a, (![0, 2048] : Fin 2 → Nat) a + S1024x1024.size a ≤ S1024x4096.size a
  slices_S520x1024_o5_0_S512x1024 : S520x1024.Slices ![5, 0] S512x1024
  inb_S1024x4096_S1024x1024_0_3072 : ∀ a, (![0, 3072] : Fin 2 → Nat) a + S1024x1024.size a ≤ S1024x4096.size a
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .f32 = 32 ∨ (Rect.block (s := S2x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S2x4096x1024.size a
  hwx0_1 : ∀ i : grid0.Coords, EltTy.bits .f32 = 32 ∨ (Rect.block (s := S2x4096x1024) S1x8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S2x4096x1024.size a
  hwx0_3 : ∀ i : grid0.Coords, EltTy.bits .f32 = 32 ∨ (Rect.block (s := S2x4096x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S4096x1024 : Shape := ⟨2, ![4096, 1024]⟩
abbrev S2x4096x4096 : Shape := ⟨3, ![2, 4096, 4096]⟩
abbrev S2x4096x4x1024 : Shape := ⟨4, ![2, 4096, 4, 1024]⟩
abbrev S2x4096x1x1024 : Shape := ⟨4, ![2, 4096, 1, 1024]⟩
abbrev S2x4095x1x1024 : Shape := ⟨4, ![2, 4095, 1, 1024]⟩
abbrev S2x4095x1024 : Shape := ⟨3, ![2, 4095, 1024]⟩
abbrev S_ : Shape := ⟨0, ![]⟩
abbrev S2x4094x1x1024 : Shape := ⟨4, ![2, 4094, 1, 1024]⟩
abbrev S2x4094x1024 : Shape := ⟨3, ![2, 4094, 1024]⟩
abbrev S2x4093x1x1024 : Shape := ⟨4, ![2, 4093, 1, 1024]⟩
abbrev S2x4093x1024 : Shape := ⟨3, ![2, 4093, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S2x4096x4096, .f32⟩
  | .hbm, ⟨3, _⟩ => ⟨S2x4096x4x1024, .f32⟩
  | .hbm, ⟨4, _⟩ => ⟨S2x4096x1x1024, .f32⟩
  | .hbm, ⟨5, _⟩ => ⟨S2x4096x1024, .f32⟩
  | .hbm, ⟨6, _⟩ => ⟨S2x4095x1x1024, .f32⟩
  | .hbm, ⟨7, _⟩ => ⟨S2x4095x1024, .f32⟩
  | .hbm, ⟨8, _⟩ => ⟨S_, .i32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S2x4094x1x1024, .f32⟩
  | .hbm, ⟨13, _⟩ => ⟨S2x4094x1024, .f32⟩
  | .hbm, ⟨14, _⟩ => ⟨S_, .i32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4093x1x1024, .f32⟩
  | .hbm, ⟨19, _⟩ => ⟨S2x4093x1024, .f32⟩
  | .hbm, ⟨20, _⟩ => ⟨S_, .i32⟩
  | .hbm, ⟨21, _⟩ => ⟨S_, .f32⟩
  | .hbm, ⟨22, _⟩ => ⟨S2x4096x1024, .f32⟩
  | .hbm, ⟨23, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S2x4096x4096_S2x4096x4x1024 : S2x4096x4096.ShapeCasts S2x4096x4x1024
  slices_S2x4096x4x1024_S2x4096x1x1024_0_0_0_0 : S2x4096x4x1024.Slices ![0, 0, 0, 0] S2x4096x1x1024
  shapeCasts_S2x4096x1x1024_S2x4096x1024 : S2x4096x1x1024.ShapeCasts S2x4096x1024
  slices_S2x4096x4x1024_S2x4095x1x1024_0_0_1_0 : S2x4096x4x1024.Slices ![0, 0, 1, 0] S2x4095x1x1024
  shapeCasts_S2x4095x1x1024_S2x4095x1024 : S2x4095x1x1024.ShapeCasts S2x4095x1024
  pads_S2x4095x1024_S2x4096x1024_000_100_000 : S2x4095x1024.Pads (![0, 1, 0] : Fin 3 → Nat) ![0, 0, 0] ![0, 0, 0] S2x4096x1024
  h_S_ : 0 < S_.numel
  slices_S2x4096x4x1024_S2x4094x1x1024_0_0_2_0 : S2x4096x4x1024.Slices ![0, 0, 2, 0] S2x4094x1x1024
  shapeCasts_S2x4094x1x1024_S2x4094x1024 : S2x4094x1x1024.ShapeCasts S2x4094x1024
  pads_S2x4094x1024_S2x4096x1024_000_200_000 : S2x4094x1024.Pads (![0, 2, 0] : Fin 3 → Nat) ![0, 0, 0] ![0, 0, 0] S2x4096x1024
  slices_S2x4096x4x1024_S2x4093x1x1024_0_0_3_0 : S2x4096x4x1024.Slices ![0, 0, 3, 0] S2x4093x1x1024
  shapeCasts_S2x4093x1x1024_S2x4093x1024 : S2x4093x1x1024.ShapeCasts S2x4093x1024
  pads_S2x4093x1024_S2x4096x1024_000_300_000 : S2x4093x1024.Pads (![0, 3, 0] : Fin 3 → Nat) ![0, 0, 0] ![0, 0, 0] S2x4096x1024
  dot_S2x4096x1024_S4096x1024_S2x4096x4096_2_1_01_0_n_n_wf : DotDims.WF S2x4096x1024 S4096x1024 S2x4096x4096 [2] [1] [0, 1] [0] [] []

variable [Facts₀]

def dot_S2x4096x1024_S4096x1024_S2x4096x4096_2_1_01_0_n_n : DotDims S2x4096x1024 S4096x1024 S2x4096x4096 where
  lhsContracting := [2]
  rhsContracting := [1]
  lhsNonContracting := [0, 1]
  rhsNonContracting := [0]
  lhsBatch := []
  rhsBatch := []
  wf := dot_S2x4096x1024_S4096x1024_S2x4096x4096_2_1_01_0_n_n_wf

class Facts : Prop extends Facts₀ where

variable [Facts]
-- ==== Proof.KBody.lean ====
/-
  The causal tap-sum kernel, one grid point at a time.

  Grid point (b, T) handles rows 512·T … 512·T + 511 of batch b. It is handed three staged blocks: the 512 rows
  themselves, the 8 rows just before them (block 64·T − 1 of the 8-row tiling, clamped to block 0 at T = 0, where the
  body replaces it by zeros), and the whole transposed weight. It stacks the 8 rows on top of the 512, and for tap
  i = 0 … 3 multiplies rows 8 − i … 8 − i + 511 of the stack by columns 1024·i … 1024·i + 1023 of the weight, adding
  the four products. This file states what the region finds when it is entered (the two host lines before it have
  transposed and re-typed the weight and touched neither argument), names what the body leaves in the output block as
  one function of the three staged blocks and the grid point, and runs the body once on whole staging buffers.
-/
import proofs.«118706_j13357348290662_1_alg».proof.Proof.Gen.Kernel.Launch
import proofs.«118706_j13357348290662_1_alg».proof.Proof.Gen.Kernel.Skeleton
import proofs.«118706_j13357348290662_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents after the transpose and the re-typing. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those two lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither line writes the first argument, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body reads and writes -/

abbrev rRows : Rect S1x512x1024 := Rect.unit (s := S1x512x1024) ![0, 0, 0] S1x512x1024.size inb_S1x512x1024_S1x512x1024_0_0_0
abbrev rHalo : Rect S1x8x1024 := Rect.unit (s := S1x8x1024) ![0, 0, 0] S1x8x1024.size inb_S1x8x1024_S1x8x1024_0_0_0
abbrev rTap0 : Rect S1024x4096 := Rect.unit (s := S1024x4096) ![0, 0] S1024x1024.size inb_S1024x4096_S1024x1024_0_0
abbrev rTap1 : Rect S1024x4096 := Rect.unit (s := S1024x4096) ![0, 1024] S1024x1024.size inb_S1024x4096_S1024x1024_0_1024
abbrev rTap2 : Rect S1024x4096 := Rect.unit (s := S1024x4096) ![0, 2048] S1024x1024.size inb_S1024x4096_S1024x1024_0_2048
abbrev rTap3 : Rect S1024x4096 := Rect.unit (s := S1024x4096) ![0, 3072] S1024x1024.size inb_S1024x4096_S1024x1024_0_3072

/-- The four-tap sum of a point's staged blocks: the rows block x0, the 8 rows before it x1, the weight x2. -/
def tapSum (i : grid0.Coords) (x0 : Vec F S1x512x1024 .f32) (x1 : Vec F S1x8x1024 .f32) (x2 : Vec F S1024x4096 .bf16) : FVec F S512x1024 .f32 :=
  k0_pay2 i (View.ld x1 rHalo) (View.ld x0 rRows) (View.ld x2 rTap0) (View.ld x2 rTap1) (View.ld x2 rTap2) (View.ld x2 rTap3)

/-- What the body leaves in the output block: its one store, of the tap sum, over the whole block. -/
def outBlk (i : grid0.Coords) (x0 : Vec F S1x512x1024 .f32) (x1 : Vec F S1x8x1024 .f32) (x2 : Vec F S1024x4096 .bf16) : Vec F S1x512x1024 .f32 :=
  View.canon [⟨rRows, k0_pay1 (tapSum i x0 x1 x2)⟩]

/-- That store covers the block. -/
theorem outCover (p0 : Vec F S1x512x1024 .f32) (y : S1x512x1024.Idx) :
    ∃ pc ∈ ([⟨rRows, p0⟩] : List (View.Piece (Elt F) S1x512x1024 .f32)), y ∈ pc.1.set :=
  View.cover_of_tiled [⟨rRows, p0⟩] S1x512x1024.size (by rfl) y

/-! ## The body once -/

set_option maxHeartbeats 1000000 in
/-- On whole staging buffers, the three inputs at read contents x0, x1, x2 and the output at anything, the body runs
    and leaves the inputs as they were and the output at outBlk of them. -/
theorem sound_kernel (c : Dev nD) (E : Set ℕ) (i : grid0.Coords)
    (arg2 : Memref sig .tc .vmem S1x512x1024 .f32) (harg2 : arg2.IsWhole) (arg3 : Memref sig .tc .vmem S1x8x1024 .f32) (harg3 : arg3.IsWhole)
    (arg4 : Memref sig .tc .vmem S1024x4096 .bf16) (harg4 : arg4.IsWhole) (arg5 : Memref sig .tc .vmem S1x512x1024 .f32) (harg5 : arg5.IsWhole)
    (x0 : Vec F S1x512x1024 .f32) (x1 : Vec F S1x8x1024 .f32) (x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2)) -∗ K ⟨⟩))
      ⊢ wp frame (wpE (defs₀ (F := F)) Variants.none c none) E (cc0__causal_conv_kernel i arg2 harg2 arg3 harg3 arg4 harg4 arg5 harg5) K := by
  simp only [cc0__causal_conv_kernel_eq_skeleton]; unfold cc0__causal_conv_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.Kernel.Tap

end
-- ==== Proof.KRun.lean ====
/-
  The region's run.

  The rows array is handed to the kernel twice — once in 512-row blocks, once in 8-row blocks — so the two input
  windows on it cannot both hold it outright: each holds one half of its share, which is enough to read and is all a
  fetch needs; the weight's window and the output's hold theirs whole. No input block is changed by the body, so at
  every point each input buffer holds its window's block there, fetched at that point or kept from an earlier one
  (the weight is fetched once, at the first point). The output block after the body is outBlk of the three blocks.
  From that: every fair execution of the program ends, faults nowhere, leaves both arguments as launched, and leaves
  the result array at the launch contents overwritten, block by block in grid order, by outBlk of each point's blocks.
-/
import proofs.«118706_j13357348290662_1_alg».proof.Proof.KBody

set_option maxRecDepth 16384

noncomputable section

namespace Cert.Kernel.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Arrays as the region finds them; each input left at its block, the output at outBlk of the blocks; nothing carried
    between points beyond the core's unused scoped buffers; the rows array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (grid0.coords t) (iblk m c 0 t) (iblk m c 1 t) (iblk m c 2 t) := by dsimp only [dats]

/-! ## Each input buffer holds its block -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Tap

end
-- ==== Proof.KLaunch.lean ====
/-
  The launch. The rows array is read through two windows; its full share is cut in two halves, one per window, and the
  other two arrays go to their windows whole. With that, the library's launch for windows that share an array applies:
  the program ends on every fair execution, without a fault; each window's array ends at what the proof data computes
  (an input: its entry contents; the output: the entry contents overwritten block by block), and every other unscoped
  buffer as the region found it.
-/
import proofs.«118706_j13357348290662_1_alg».proof.Proof.KRun

set_option maxRecDepth 16384

noncomputable section

namespace Cert.Kernel.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are three: the rows, the re-typed transposed weight, the result. -/
theorem arrRefs_eq : Finset.univ.image (Pipeline.arrRef spec0) = [main_arg0, main_v1, main_v2].toFinset := by decide

/-- Those three, each whole at the entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v1, main_v2] arrRefs_eq (by decide) _

/-- The three buffers, each whole, make the four windows' holdings: the rows array's share halved. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  beta_reduce
  rw [show (dats m 0 c).arrAt 0 0 = V m c main_arg0 from rfl, show (dats m 0 c).arrAt 1 0 = V m c main_arg0 from rfl,
    show (dats m 0 c).arrAt 2 0 = V m c main_v1 from rfl, show (dats m 0 c).arrAt 3 0 = V m c main_v2 from rfl]
  iintro ⟨H0, H1, H2⟩
  ihave Hs := ((pointsTo_share (PosShare.mem_left_op_right fullShare)).1) $$ H0
  icases Hs with ⟨Ha, Hb⟩
  isplitl [Ha]; · iexact Ha
  isplitl [Hb]; · iexact Hb
  isplitl [H1]; · iexact H1
  iexact H2

/-! ## The run -/

set_option backward.isDefEq.respectTransparency.types false in
/-- From any memory with every counter at zero: every fair execution of the program ends without a fault, with the
    result array at the entry contents overwritten by each point's output block, and both arguments as launched. -/
theorem run_main : θ_run defs (onTc (τ := τ) (main (F := F))) ⟨m, fun _ => 0, ρ⟩ (fun r => ∀ c : Dev nD,
      r.2.mem ((c.tc : Thread nD τ).loc main_v2) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by
      iintro H; isplitr; · iempintro
      iexact H)
    (fun c => by
      rw [show (dats m 0 c).Φ 0 = Pipeline.scopedRest (Ix := Unit) (Name := ℕ) (U := UR sig nD τ) (Lvl := ℕ) (Val := Elt F) (cfgs 0).spec c from rfl]
      iintro ⟨-, H⟩; iexact H)
    (fun c => by
      rw [show (dats m 0 c).Φ (Fin.last (cfgs 0).N) = Pipeline.scopedRest (Ix := Unit) (Name := ℕ) (U := UR sig nD τ) (Lvl := ℕ) (Val := Elt F) (cfgs 0).spec c from rfl]
      iintro H; isplitr; · iempintro
      iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Tap

end
-- ==== Proof.KIBody.lean ====
/-
  The causal tap-sum kernel, one grid point at a time.

  Grid point (b, T) handles rows 512·T … 512·T + 511 of batch b. It is handed three staged blocks: the 512 rows
  themselves, the 8 rows just before them (block 64·T − 1 of the 8-row tiling, clamped to block 0 at T = 0, where the
  body replaces it by zeros), and the whole transposed weight. It stacks the 8 rows on top of the 512, and for tap
  i = 0 … 3 multiplies rows 8 − i … 8 − i + 511 of the stack by columns 1024·i … 1024·i + 1023 of the weight, adding
  the four products. This file states what the region finds when it is entered (the two host lines before it have
  transposed and re-typed the weight and touched neither argument), names what the body leaves in the output block as
  one function of the three staged blocks and the grid point, and runs the body once on whole staging buffers.
-/
import proofs.«118706_j13357348290662_1_alg».proof.Proof.Gen.KernelIdeal.Launch
import proofs.«118706_j13357348290662_1_alg».proof.Proof.Gen.KernelIdeal.Skeleton
import proofs.«118706_j13357348290662_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch contents after the transpose and the re-typing. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those two lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither line writes the first argument, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body reads and writes -/

abbrev rRows : Rect S1x512x1024 := Rect.unit (s := S1x512x1024) ![0, 0, 0] S1x512x1024.size inb_S1x512x1024_S1x512x1024_0_0_0
abbrev rHalo : Rect S1x8x1024 := Rect.unit (s := S1x8x1024) ![0, 0, 0] S1x8x1024.size inb_S1x8x1024_S1x8x1024_0_0_0
abbrev rTap0 : Rect S1024x4096 := Rect.unit (s := S1024x4096) ![0, 0] S1024x1024.size inb_S1024x4096_S1024x1024_0_0
abbrev rTap1 : Rect S1024x4096 := Rect.unit (s := S1024x4096) ![0, 1024] S1024x1024.size inb_S1024x4096_S1024x1024_0_1024
abbrev rTap2 : Rect S1024x4096 := Rect.unit (s := S1024x4096) ![0, 2048] S1024x1024.size inb_S1024x4096_S1024x1024_0_2048
abbrev rTap3 : Rect S1024x4096 := Rect.unit (s := S1024x4096) ![0, 3072] S1024x1024.size inb_S1024x4096_S1024x1024_0_3072

/-- The four-tap sum of a point's staged blocks: the rows block x0, the 8 rows before it x1, the weight x2. -/
def tapSum (i : grid0.Coords) (x0 : Vec F S1x512x1024 .f32) (x1 : Vec F S1x8x1024 .f32) (x2 : Vec F S1024x4096 .bf16) : FVec F S512x1024 .f32 :=
  k0_pay2 i (View.ld x1 rHalo) (View.ld x0 rRows) (View.ld x2 rTap0) (View.ld x2 rTap1) (View.ld x2 rTap2) (View.ld x2 rTap3)

/-- What the body leaves in the output block: its one store, of the tap sum, over the whole block. -/
def outBlk (i : grid0.Coords) (x0 : Vec F S1x512x1024 .f32) (x1 : Vec F S1x8x1024 .f32) (x2 : Vec F S1024x4096 .bf16) : Vec F S1x512x1024 .f32 :=
  View.canon [⟨rRows, k0_pay1 (tapSum i x0 x1 x2)⟩]

/-- That store covers the block. -/
theorem outCover (p0 : Vec F S1x512x1024 .f32) (y : S1x512x1024.Idx) :
    ∃ pc ∈ ([⟨rRows, p0⟩] : List (View.Piece (Elt F) S1x512x1024 .f32)), y ∈ pc.1.set :=
  View.cover_of_tiled [⟨rRows, p0⟩] S1x512x1024.size (by rfl) y

/-! ## The body once -/

set_option maxHeartbeats 1000000 in
/-- On whole staging buffers, the three inputs at read contents x0, x1, x2 and the output at anything, the body runs
    and leaves the inputs as they were and the output at outBlk of them. -/
theorem sound_kernel (c : Dev nD) (E : Set ℕ) (i : grid0.Coords)
    (arg2 : Memref sig .tc .vmem S1x512x1024 .f32) (harg2 : arg2.IsWhole) (arg3 : Memref sig .tc .vmem S1x8x1024 .f32) (harg3 : arg3.IsWhole)
    (arg4 : Memref sig .tc .vmem S1024x4096 .bf16) (harg4 : arg4.IsWhole) (arg5 : Memref sig .tc .vmem S1x512x1024 .f32) (harg5 : arg5.IsWhole)
    (x0 : Vec F S1x512x1024 .f32) (x1 : Vec F S1x8x1024 .f32) (x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2)) -∗ K ⟨⟩))
      ⊢ wp frame (wpE (defs₀ (F := F)) Variants.none c none) E (cc0__causal_conv_kernel i arg2 harg2 arg3 harg3 arg4 harg4 arg5 harg5) K := by
  simp only [cc0__causal_conv_kernel_eq_skeleton]; unfold cc0__causal_conv_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.KernelIdeal.Tap

end
-- ==== Proof.KIRun.lean ====
/-
  The region's run.

  The rows array is handed to the kernel twice — once in 512-row blocks, once in 8-row blocks — so the two input
  windows on it cannot both hold it outright: each holds one half of its share, which is enough to read and is all a
  fetch needs; the weight's window and the output's hold theirs whole. No input block is changed by the body, so at
  every point each input buffer holds its window's block there, fetched at that point or kept from an earlier one
  (the weight is fetched once, at the first point). The output block after the body is outBlk of the three blocks.
  From that: every fair execution of the program ends, faults nowhere, leaves both arguments as launched, and leaves
  the result array at the launch contents overwritten, block by block in grid order, by outBlk of each point's blocks.
-/
import proofs.«118706_j13357348290662_1_alg».proof.Proof.KIBody

set_option maxRecDepth 16384

noncomputable section

namespace Cert.KernelIdeal.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Arrays as the region finds them; each input left at its block, the output at outBlk of the blocks; nothing carried
    between points beyond the core's unused scoped buffers; the rows array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (grid0.coords t) (iblk m c 0 t) (iblk m c 1 t) (iblk m c 2 t) := by dsimp only [dats]

/-! ## Each input buffer holds its block -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Tap

end
-- ==== Proof.KILaunch.lean ====
/-
  The launch. The rows array is read through two windows; its full share is cut in two halves, one per window, and the
  other two arrays go to their windows whole. With that, the library's launch for windows that share an array applies:
  the program ends on every fair execution, without a fault; each window's array ends at what the proof data computes
  (an input: its entry contents; the output: the entry contents overwritten block by block), and every other unscoped
  buffer as the region found it.
-/
import proofs.«118706_j13357348290662_1_alg».proof.Proof.KIRun

set_option maxRecDepth 16384

noncomputable section

namespace Cert.KernelIdeal.Tap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are three: the rows, the re-typed transposed weight, the result. -/
theorem arrRefs_eq : Finset.univ.image (Pipeline.arrRef spec0) = [main_arg0, main_v1, main_v2].toFinset := by decide

/-- Those three, each whole at the entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v1, main_v2] arrRefs_eq (by decide) _

/-- The three buffers, each whole, make the four windows' holdings: the rows array's share halved. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  beta_reduce
  rw [show (dats m 0 c).arrAt 0 0 = V m c main_arg0 from rfl, show (dats m 0 c).arrAt 1 0 = V m c main_arg0 from rfl,
    show (dats m 0 c).arrAt 2 0 = V m c main_v1 from rfl, show (dats m 0 c).arrAt 3 0 = V m c main_v2 from rfl]
  iintro ⟨H0, H1, H2⟩
  ihave Hs := ((pointsTo_share (PosShare.mem_left_op_right fullShare)).1) $$ H0
  icases Hs with ⟨Ha, Hb⟩
  isplitl [Ha]; · iexact Ha
  isplitl [Hb]; · iexact Hb
  isplitl [H1]; · iexact H1
  iexact H2

/-! ## The run -/

set_option backward.isDefEq.respectTransparency.types false in
/-- From any memory with every counter at zero: every fair execution of the program ends without a fault, with the
    result array at the entry contents overwritten by each point's output block, and both arguments as launched. -/
theorem run_main : θ_run defs (onTc (τ := τ) (main (F := F))) ⟨m, fun _ => 0, ρ⟩ (fun r => ∀ c : Dev nD,
      r.2.mem ((c.tc : Thread nD τ).loc main_v2) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by
      iintro H; isplitr; · iempintro
      iexact H)
    (fun c => by
      rw [show (dats m 0 c).Φ 0 = Pipeline.scopedRest (Ix := Unit) (Name := ℕ) (U := UR sig nD τ) (Lvl := ℕ) (Val := Elt F) (cfgs 0).spec c from rfl]
      iintro ⟨-, H⟩; iexact H)
    (fun c => by
      rw [show (dats m 0 c).Φ (Fin.last (cfgs 0).N) = Pipeline.scopedRest (Ix := Unit) (Name := ℕ) (U := UR sig nD τ) (Lvl := ℕ) (Val := Elt F) (cfgs 0).spec c from rfl]
      iintro H; isplitr; · iempintro
      iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Tap

end
-- ==== Proof.KITap.lean ====
/-
  One grid point's output block, entry by entry.

  The body stacks 8 rows (the rows before the block, or zeros at the first block of a sequence) on the block's 512
  rows; stack row q is the earlier row q for q < 8 and block row q − 8 from there on. Tap s multiplies stack rows
  8 − s … 8 − s + 511 by columns 1024·s … of the staged weight into a zero accumulator, and the four products are
  added onto a zero block in order. At block entry (r, e) that is the sum over s of the inner product of stack row
  8 − s + r with column 1024·s + e of the weight.
-/
import proofs.«118706_j13357348290662_1_alg».proof.Proof.KIBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tap

open Idealize.ShloMosaic Idealize.ShloMosaic.ValueIdx Cert.KernelIdeal Cert.KernelIdeal.Gen

/-! ## A block product at an entry -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512×1024 by 1024×1024 product into a zero accumulator, at (r, e): row r against column e. -/
theorem blockProduct_apply (l : FVec Ideal S512x1024 .bf16) (w : FVec Ideal S1024x1024 .bf16) (r : Fin 512) (e : Fin 1024) :
    matmul dot_S512x1024_S1024x1024_S512x1024_1_0_0_1_n_n none l w (constant S512x1024 .f32 0x00000000#32) (ix2 r e)
      = ∑ k : Fin 1024, l (ix2 r k) * w (ix2 k e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_dot_0 _ _).trans hk
    | ⟨1, _⟩ => exact rhs_dot_1 _ _)
  rw [el, er]

/-! ## The stacked rows -/

/-- Whether a grid point is the first block of its sequence, as the body tests it. -/
theorem firstBlock_test (n : Nat) (hn : n < 8) :
    Scalar.cmpi .eq (BitVec.ofNat 32 n) (0#32) = if n = 0 then 1#1 else 0#1 := by
  interval_cases n <;> rfl

/-- Stack row q at column k: zero or the earlier row q for q < 8, block row q − 8 otherwise. -/
def stackAt (i : grid0.Coords) (x0 : Vec Ideal S1x512x1024 .f32) (x1 : Vec Ideal S1x8x1024 .f32) (q : Fin 520) (k : Fin 1024) : EReal :=
  if h : q.val < 8 then (if (i 1).val = 0 then 0 else x1 (ix3 (0 : Fin 1) (⟨q.val, h⟩ : Fin 8) k))
  else x0 (ix3 (0 : Fin 1) (⟨q.val - 8, by omega⟩ : Fin 512) k)

theorem stack_apply (i : grid0.Coords) (x0 : Vec Ideal S1x512x1024 .f32) (x1 : Vec Ideal S1x8x1024 .f32) (q : Fin 520) (k : Fin 1024) :
    concatenate S520x1024 0
        [⟨S8x1024, Scalar.select (Scalar.cmpi .eq (BitVec.ofNat 32 (i 1).val) (0#32))
            (broadcast S8x1024 (Scalar.ofBits (F := Ideal) .f32 0x00000000#32)) (shapeCast S8x1024 x1 shapeCasts_S1x8x1024_S8x1024)⟩,
          ⟨S512x1024, shapeCast S512x1024 x0 shapeCasts_S1x512x1024_S512x1024⟩]
        concatenates_S8x1024_S512x1024_S520x1024_d0 (ix2 q k)
      = stackAt i x0 x1 q k := by
  unfold stackAt
  by_cases h : q.val < 8
  · rw [dif_pos h]
    refine (concatenate_pair_apply_left (t := S520x1024) (s₁ := S8x1024) (s₂ := S512x1024) (0 : Fin 2) _ _ concatenates_S8x1024_S512x1024_S520x1024_d0 (ix2 q k) rfl
      (ix2 (⟨q.val, h⟩ : Fin 8) k) (fun b => by match b with | ⟨0, _⟩ => rfl | ⟨1, _⟩ => rfl)).trans ?_
    rw [firstBlock_test _ (i 1).isLt]
    by_cases h0 : (i 1).val = 0
    · rw [if_pos h0, if_pos h0, select_one]
      show Ideal.ofBits .f32 0x00000000#32 = 0
      exact Ideal.ofBits_zero_f32
    · rw [if_neg h0, if_neg h0, select_zero]
      exact shapeCast_1ab_ab_apply x1 shapeCasts_S1x8x1024_S8x1024 _ _
  · rw [dif_neg h]
    refine (concatenate_pair_apply_right (t := S520x1024) (s₁ := S8x1024) (s₂ := S512x1024) (0 : Fin 2) _ _ concatenates_S8x1024_S512x1024_S520x1024_d0 (ix2 q k) rfl rfl
      (ix2 (⟨q.val - 8, by omega⟩ : Fin 512) k) (fun b hb => by match b with | ⟨0, _⟩ => exact absurd rfl hb | ⟨1, _⟩ => rfl)
      (by show (q.val - 8) + 8 = q.val; omega)).trans ?_
    exact shapeCast_1ab_ab_apply x0 shapeCasts_S1x512x1024_S512x1024 _ _

/-! ## One tap, and the four -/

theorem zero3 : (![0, 0, 0] : Fin 3 → Nat) = fun _ => 0 := funext fun a => by fin_cases a <;> rfl

/-- Rows o … o + 511 of a 520-row stack against columns off … off + 1023 of the staged weight, at (r, e). -/
theorem tapProduct_apply (c : FVec Ideal S520x1024 .f32) (o : Nat) (ho : o + 512 ≤ 520) (hs : S520x1024.Slices ![o, 0] S512x1024)
    (x2 : Vec Ideal S1024x4096 .bf16) (off : Nat) (hoff : off + 1024 ≤ 4096)
    (inb : ∀ a, (![0, off] : Fin 2 → Nat) a + S1024x1024.size a ≤ S1024x4096.size a) (r : Fin 512) (e : Fin 1024) :
    matmul dot_S512x1024_S1024x1024_S512x1024_1_0_0_1_n_n none
        (truncf .bf16 (extractStridedSlice S512x1024 ![o, 0] c hs) bitsLt_bf16_f32)
        (shapeCast S1024x1024 (View.ld x2 (Rect.unit (s := S1024x4096) ![0, off] S1024x1024.size inb)) shapeCasts_S1024x1024_S1024x1024 : FVec Ideal S1024x1024 .bf16)
        (constant S512x1024 .f32 0x00000000#32) (ix2 r e)
      = ∑ k : Fin 1024, c (ix2 (⟨o + r.val, by omega⟩ : Fin 520) k) * x2 (ix2 k (⟨off + e.val, by omega⟩ : Fin 4096)) := by
  rw [blockProduct_apply]
  refine Finset.sum_congr rfl fun k _ => ?_
  have hsc : (shapeCast S1024x1024 (View.ld x2 (Rect.unit (s := S1024x4096) ![0, off] S1024x1024.size inb)) shapeCasts_S1024x1024_S1024x1024 : FVec Ideal S1024x1024 .bf16)
      = View.ld x2 (Rect.unit (s := S1024x4096) ![0, off] S1024x1024.size inb) := shapeCast_self (s := S1024x1024) _ _
  rw [truncf_apply, slice2_axis0_apply o c hs r k (⟨o + r.val, by omega⟩ : Fin 520) rfl, hsc]
  congr 1
  show x2 ((Rect.unit (s := S1024x4096) ![0, off] S1024x1024.size inb).idx (ix2 k e)) = _
  congr 1
  funext a; apply Fin.ext
  match a with
  | ⟨0, _⟩ => show 0 + 1 * k.val = k.val; omega
  | ⟨1, _⟩ => show off + 1 * e.val = off + e.val; omega

/-- A tap of a point's block at (r, e): stack row o + r against weight column off + e (tap s has o = 8 − s, off = 1024·s). -/
def tapAt (i : grid0.Coords) (x0 : Vec Ideal S1x512x1024 .f32) (x1 : Vec Ideal S1x8x1024 .f32) (x2 : Vec Ideal S1024x4096 .bf16)
    (o : Nat) (ho : o + 512 ≤ 520) (off : Nat) (hoff : off + 1024 ≤ 4096) (r : Fin 512) (e : Fin 1024) : EReal :=
  ∑ k : Fin 1024, stackAt i x0 x1 (⟨o + r.val, by omega⟩ : Fin 520) k * x2 (ix2 k (⟨off + e.val, by omega⟩ : Fin 4096))

/-- The four taps added onto zero, in order. -/
def tapsAt (i : grid0.Coords) (x0 : Vec Ideal S1x512x1024 .f32) (x1 : Vec Ideal S1x8x1024 .f32) (x2 : Vec Ideal S1024x4096 .bf16)
    (r : Fin 512) (e : Fin 1024) : EReal :=
  0 + tapAt i x0 x1 x2 8 (by omega) 0 (by omega) r e + tapAt i x0 x1 x2 7 (by omega) 1024 (by omega) r e
    + tapAt i x0 x1 x2 6 (by omega) 2048 (by omega) r e + tapAt i x0 x1 x2 5 (by omega) 3072 (by omega) r e

/-- The body's sum at (r, e). -/
theorem tapSum_apply (i : grid0.Coords) (x0 : Vec Ideal S1x512x1024 .f32) (x1 : Vec Ideal S1x8x1024 .f32) (x2 : Vec Ideal S1024x4096 .bf16)
    (r : Fin 512) (e : Fin 1024) :
    tapSum (F := Ideal) i x0 x1 x2 (ix2 r e) = tapsAt i x0 x1 x2 r e := by
  unfold tapSum k0_pay2
  dsimp only
  rw [addf_apply, addf_apply, addf_apply, addf_apply,
    tapProduct_apply _ 8 (by omega) _ x2 0 (by omega), tapProduct_apply _ 7 (by omega) _ x2 1024 (by omega),
    tapProduct_apply _ 6 (by omega) _ x2 2048 (by omega), tapProduct_apply _ 5 (by omega) _ x2 3072 (by omega)]
  simp only [View.ld_unit_zero (S := S1x8x1024) zero3, View.ld_unit_zero (S := S1x512x1024) zero3, stack_apply]
  rw [broadcast_apply]
  show Ideal.ofBits .f32 0x00000000#32 + _ + _ + _ + _ = _
  rw [Ideal.ofBits_zero_f32]
  rfl

/-- The output block after the body, at (u, r, e). -/
theorem outBlk_apply (i : grid0.Coords) (x0 : Vec Ideal S1x512x1024 .f32) (x1 : Vec Ideal S1x8x1024 .f32) (x2 : Vec Ideal S1024x4096 .bf16)
    (u : Fin 1) (r : Fin 512) (e : Fin 1024) :
    outBlk (F := Ideal) i x0 x1 x2 (ix3 u r e) = tapsAt i x0 x1 x2 r e := by
  unfold outBlk
  rw [View.canon_unit_zero zero3]
  unfold k0_pay1
  rw [shapeCast_ab_1ab_apply _ shapeCasts_S512x1024_S1x512x1024 u r e]
  exact tapSum_apply i x0 x1 x2 r e

end Cert.KernelIdeal.Tap

end
-- ==== Proof.TapSpec.lean ====
/-
  The function both programs compute, over the extended reals.

  X is a stack of 2 matrices of 4096 rows and 1024 columns, W one matrix of 4096 rows and 1024 columns, read as four
  1024-row bands. Tap i of output entry (b, t, e) is the inner product of row t − i of X's matrix b with row
  1024·i + e of W, and is zero for the first i rows (t < i), where there is no row t − i. The result is the sum of the
  four taps, added in the order 0, 1, 2, 3.
-/
import Idealize.ShloMosaic.PureOps.Ideal
import Idealize.ShloMosaic.Lib.ValueIdx

noncomputable section

namespace Cert.TapSpec

open Idealize.ShloMosaic Idealize.ShloMosaic.ValueIdx

abbrev SX : Shape := ⟨3, ![2, 4096, 1024]⟩
abbrev SW : Shape := ⟨2, ![4096, 1024]⟩

/-- Tap i at (b, t, e): row t − i of X against row 1024·i + e of W; zero when t < i. -/
def tap (X : SX.Idx → EReal) (W : SW.Idx → EReal) (i : Fin 4) (b : Fin 2) (t : Fin 4096) (e : Fin 1024) : EReal :=
  if h : i.val ≤ t.val then
    ∑ k : Fin 1024, X (ix3 b (⟨t.val - i.val, by omega⟩ : Fin 4096) k) * W (ix2 (⟨i.val * 1024 + e.val, by omega⟩ : Fin 4096) k)
  else 0

/-- The four taps summed, in order. -/
def G (X : SX.Idx → EReal) (W : SW.Idx → EReal) : SX.Idx → EReal := fun j =>
  tap X W 0 ⟨(j 0).val, (j 0).isLt⟩ ⟨(j 1).val, (j 1).isLt⟩ ⟨(j 2).val, (j 2).isLt⟩
    + tap X W 1 ⟨(j 0).val, (j 0).isLt⟩ ⟨(j 1).val, (j 1).isLt⟩ ⟨(j 2).val, (j 2).isLt⟩
    + tap X W 2 ⟨(j 0).val, (j 0).isLt⟩ ⟨(j 1).val, (j 1).isLt⟩ ⟨(j 2).val, (j 2).isLt⟩
    + tap X W 3 ⟨(j 0).val, (j 0).isLt⟩ ⟨(j 1).val, (j 1).isLt⟩ ⟨(j 2).val, (j 2).isLt⟩

theorem G_ix3 (X : SX.Idx → EReal) (W : SW.Idx → EReal) (b : Fin 2) (t : Fin 4096) (e : Fin 1024) :
    G X W (ix3 b t e) = tap X W 0 b t e + tap X W 1 b t e + tap X W 2 b t e + tap X W 3 b t e := rfl

/-- Tap i where its row exists. -/
theorem tap_of_le (X : SX.Idx → EReal) (W : SW.Idx → EReal) (i : Fin 4) (b : Fin 2) (t : Fin 4096) (e : Fin 1024) (h : i.val ≤ t.val) :
    tap X W i b t e = ∑ k : Fin 1024, X (ix3 b (⟨t.val - i.val, by omega⟩ : Fin 4096) k) * W (ix2 (⟨i.val * 1024 + e.val, by omega⟩ : Fin 4096) k) := by
  unfold tap; rw [dif_pos h]

/-- Tap i before its first row. -/
theorem tap_of_lt (X : SX.Idx → EReal) (W : SW.Idx → EReal) (i : Fin 4) (b : Fin 2) (t : Fin 4096) (e : Fin 1024) (h : t.val < i.val) :
    tap X W i b t e = 0 := by
  unfold tap; rw [dif_neg (by omega)]

end Cert.TapSpec

end
-- ==== Proof.KIValue.lean ====
/-
  From blocks to the array.

  The grid's point t is (b, T) = (t / 8, t % 8). Its rows block is rows 512·T … of matrix b of X, its output block the
  same rows of the result, its 8-row block rows 512·T − 8 … 512·T − 1 (for T ≥ 1), and the staged weight at (k, j) is
  W at (j, k): the host transposed it and the change of format is the identity. So stack row 8 − s + r of point t is
  row 512·T + r − s of X where that row exists and zero where it does not, tap s of the block at (r, e) is the
  specification's tap s at (b, 512·T + r, e), and what point t writes back is its block of the specification's result.
  The sixteen output blocks tile the result array, so after the run the array is the specification's result.
-/
import proofs.«118706_j13357348290662_1_alg».proof.Proof.KILaunch
import proofs.«118706_j13357348290662_1_alg».proof.Proof.KITap
import proofs.«118706_j13357348290662_1_alg».proof.Proof.TapSpec
import Idealize.ShloMosaic.Lib.StableHlo.Run

set_option maxRecDepth 16384

noncomputable section

namespace Cert.KernelIdeal.Tap

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.TapSpec

variable (m : (ℓ : Loc nD τ sig) → Buf (Elt Ideal) ℓ) (ρ : Dev nD → PrngReg)

/-- The two arguments as launched. -/
abbrev argX (c : Dev nD) : SX.Idx → EReal := m ((c : Thread nD τ).loc main_arg0)
abbrev argW (c : Dev nD) : SW.Idx → EReal := m ((c : Thread nD τ).loc main_arg1)

/-! ## The staged weight -/

theorem V_weight (c : Dev nD) :
    (V m c main_v1 : S1024x4096.Idx → EReal)
      = truncf (F := Ideal) .bf16 (transpose S1024x4096 [1, 0] (m ((c : Thread nD τ).loc main_arg1)) transposes_S4096x1024_S1024x4096_1_0) bitsLt_bf16_f32 := by
  dsimp only [V, hostOps0]; after_results

theorem V_weight_apply (c : Dev nD) (k : Fin 1024) (j : Fin 4096) : V m c main_v1 (ix2 k j) = argW m c (ix2 j k) := by
  rw [V_weight, truncf_apply, transpose_ix2_apply]

/-! ## The grid and the index maps, decided -/

theorem grid_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = (if t.val % 8 = 0 then 0 else 64 * (t.val % 8) - 1)
    ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0
    ∧ (grid0.coords t 1).val = t.val % 8 :=
  (by decide +kernel : ∀ t : Fin grid0.N, _)

/-- The grid has sixteen points. -/
theorem t_lt (t : Fin cfg0.N) : t.val < 16 :=
  lt_of_lt_of_eq t.isLt (show cfg0.N = 16 from N_0)

/-! ## The three blocks of a point -/

theorem rows_read (c : Dev nD) (t : Fin cfg0.N) (u : Fin 1) (r : Fin 512) (k : Fin 1024) :
    iblk m c 0 t (ix3 u r k) = argX m c (ix3 (⟨t.val / 8, by have := t_lt t; omega⟩ : Fin 2) (⟨512 * (t.val % 8) + r.val, by omega⟩ : Fin 4096) k) := by
  obtain ⟨e0, e1, e2, -⟩ := grid_facts t
  show V m c main_arg0 (((cfg0.win 0).blk t).view.emb (ix3 u r k)) = _
  rw [V_main_arg0]
  congr 1
  funext a; apply Fin.ext
  match a with
  | ⟨0, _⟩ => show win0_0.index t (0 : Fin 3) * 1 + 1 * u.val = t.val / 8; omega
  | ⟨1, _⟩ => show win0_0.index t (1 : Fin 3) * 512 + 1 * r.val = 512 * (t.val % 8) + r.val; omega
  | ⟨2, _⟩ => show win0_0.index t (2 : Fin 3) * 1024 + 1 * k.val = k.val; omega

theorem halo_read (c : Dev nD) (t : Fin cfg0.N) (ht : t.val % 8 ≠ 0) (u : Fin 1) (h : Fin 8) (k : Fin 1024) :
    iblk m c 1 t (ix3 u h k) = argX m c (ix3 (⟨t.val / 8, by have := t_lt t; omega⟩ : Fin 2) (⟨512 * (t.val % 8) - 8 + h.val, by omega⟩ : Fin 4096) k) := by
  obtain ⟨-, -, -, e0, e1, e2, -⟩ := grid_facts t
  rw [if_neg ht] at e1
  show V m c main_arg0 (((cfg0.win 1).blk t).view.emb (ix3 u h k)) = _
  rw [V_main_arg0]
  congr 1
  funext a; apply Fin.ext
  match a with
  | ⟨0, _⟩ => show win0_1.index t (0 : Fin 3) * 1 + 1 * u.val = t.val / 8; omega
  | ⟨1, _⟩ => show win0_1.index t (1 : Fin 3) * 8 + 1 * h.val = 512 * (t.val % 8) - 8 + h.val; omega
  | ⟨2, _⟩ => show win0_1.index t (2 : Fin 3) * 1024 + 1 * k.val = k.val; omega

theorem weight_read (c : Dev nD) (t : Fin cfg0.N) (k : Fin 1024) (j : Fin 4096) :
    iblk m c 2 t (ix2 k j) = argW m c (ix2 j k) := by
  obtain ⟨-, -, -, -, -, -, e0, e1, -⟩ := grid_facts t
  show V m c main_v1 (((cfg0.win 2).blk t).view.emb (ix2 k j)) = _
  rw [← V_weight_apply]
  congr 1
  funext a; apply Fin.ext
  match a with
  | ⟨0, _⟩ => show win0_2.index t (0 : Fin 2) * 1024 + 1 * k.val = k.val; omega
  | ⟨1, _⟩ => show win0_2.index t (1 : Fin 2) * 4096 + 1 * j.val = j.val; omega

/-! ## Stack rows are rows of X; taps are the specification's taps -/

/-- Stack row o + r of point t (o = 8 − s) is row 512·T + r − s of X where there is one, zero where there is none. -/
theorem stack_read (c : Dev nD) (t : Fin cfg0.N) (s o : Nat) (hos : o + s = 8) (hs : s ≤ 3) (r : Fin 512) (k : Fin 1024) :
    stackAt (grid0.coords t) (iblk m c 0 t) (iblk m c 1 t) (⟨o + r.val, by omega⟩ : Fin 520) k
      = if h : s ≤ 512 * (t.val % 8) + r.val then
          argX m c (ix3 (⟨t.val / 8, by have := t_lt t; omega⟩ : Fin 2) (⟨512 * (t.val % 8) + r.val - s, by omega⟩ : Fin 4096) k)
        else 0 := by
  have eg : (grid0.coords t 1).val = t.val % 8 := (grid_facts t).2.2.2.2.2.2.2.2.2.2.2
  unfold stackAt
  by_cases hq : o + r.val < 8
  · rw [dif_pos hq]
    by_cases h0 : t.val % 8 = 0
    · rw [if_pos (eg.trans h0), dif_neg (by omega)]
    · rw [if_neg (fun h => h0 (eg.symm.trans h)), dif_pos (by omega), halo_read m c t h0]
      exact congrArg (fun z : Fin 4096 => argX m c (ix3 _ z k)) (Fin.ext (by show 512 * (t.val % 8) - 8 + (o + r.val) = 512 * (t.val % 8) + r.val - s; omega))
  · rw [dif_neg hq, dif_pos (by omega), rows_read]
    exact congrArg (fun z : Fin 4096 => argX m c (ix3 _ z k)) (Fin.ext (by show 512 * (t.val % 8) + (o + r.val - 8) = 512 * (t.val % 8) + r.val - s; omega))

/-- Tap s of point t's block at (r, e) is the specification's tap s at (b, 512·T + r, e). -/
theorem tapAt_eq (c : Dev nD) (t : Fin cfg0.N) (s : Fin 4) (o : Nat) (ho : o + 512 ≤ 520) (hos : o + s.val = 8)
    (off : Nat) (hoff : off + 1024 ≤ 4096) (hoffs : off = s.val * 1024) (r : Fin 512) (e : Fin 1024) :
    tapAt (grid0.coords t) (iblk m c 0 t) (iblk m c 1 t) (iblk m c 2 t) o ho off hoff r e
      = tap (argX m c) (argW m c) s (⟨t.val / 8, by have := t_lt t; omega⟩ : Fin 2) (⟨512 * (t.val % 8) + r.val, by omega⟩ : Fin 4096) e := by
  have hs : s.val ≤ 3 := by have := s.isLt; omega
  unfold tapAt
  by_cases h : s.val ≤ 512 * (t.val % 8) + r.val
  · rw [tap_of_le _ _ _ _ _ _ h]
    refine Finset.sum_congr rfl fun k _ => ?_
    rw [stack_read m c t s.val o hos hs r k, dif_pos h, weight_read]
    exact congrArg (fun z : Fin 4096 => _ * argW m c (ix2 z k)) (Fin.ext (by show off + e.val = s.val * 1024 + e.val; omega))
  · rw [tap_of_lt _ _ _ _ _ _ (by show 512 * (t.val % 8) + r.val < s.val; omega)]
    refine Finset.sum_eq_zero fun k _ => ?_
    rw [stack_read m c t s.val o hos hs r k, dif_neg h, zero_mul]

/-! ## What a point writes back -/

theorem blk_emb (t : Fin cfg0.N) (u : Fin 1) (r : Fin 512) (e : Fin 1024) :
    ((cfg0.win 3).blk t).view.emb (ix3 u r e)
      = ix3 (⟨t.val / 8, by have := t_lt t; omega⟩ : Fin 2) (⟨512 * (t.val % 8) + r.val, by omega⟩ : Fin 4096) e := by
  obtain ⟨-, -, -, -, -, -, -, -, e0, e1, e2, -⟩ := grid_facts t
  funext a; apply Fin.ext
  match a with
  | ⟨0, _⟩ => show win0_3.index t (0 : Fin 3) * 1 + 1 * u.val = t.val / 8; omega
  | ⟨1, _⟩ => show win0_3.index t (1 : Fin 3) * 512 + 1 * r.val = 512 * (t.val % 8) + r.val; omega
  | ⟨2, _⟩ => show win0_3.index t (2 : Fin 3) * 1024 + 1 * e.val = e.val; omega

/-- Point t writes back its block of the specification's result. -/
theorem flushed_eq (c : Dev nD) (t : Fin cfg0.N) :
    (dats m 0 c).flushed 3 t = ((cfg0.win 3).blk t).view.read (Elt Ideal) (G (argX m c) (argW m c)) := by
  show (cfg0.win 3).cut (grid0.coords t) ((dats m 0 c).after 3 t) = _
  rw [after3]
  funext j
  obtain ⟨u, r, e, rfl⟩ : ∃ (u : Fin 1) (r : Fin 512) (e : Fin 1024), j = ix3 u r e := ⟨j 0, j 1, j 2, eq_ix3 j⟩
  show outBlk (grid0.coords t) (iblk m c 0 t) (iblk m c 1 t) (iblk m c 2 t) (ix3 u r e)
    = G (argX m c) (argW m c) (((cfg0.win 3).blk t).view.emb (ix3 u r e))
  rw [blk_emb, G_ix3, outBlk_apply]
  unfold tapsAt
  rw [tapAt_eq m c t 0 8 _ rfl 0 _ rfl, tapAt_eq m c t 1 7 _ rfl 1024 _ rfl, tapAt_eq m c t 2 6 _ rfl 2048 _ rfl,
    tapAt_eq m c t 3 5 _ rfl 3072 _ rfl, zero_add]

/-! ## The blocks tile the result -/

theorem mem_blk (t : Fin cfg0.N) (i : S2x4096x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v2).slice (win0_3.rect t)).set ↔ _
  rw [View.set_slice_whole, Rect.mem_set_unit]
  exact Iff.rfl

theorem cover (i : S2x4096x1024.Idx) : ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 1024 := (i 2).isLt
  let t : Fin cfg0.N := ⟨8 * (i 0).val + (i 1).val / 512, by rw [show cfg0.N = 16 from N_0]; omega⟩
  refine ⟨t, flush0_3 t, ?_⟩
  rw [mem_blk]
  obtain ⟨-, -, -, -, -, -, -, -, e0, e1, e2, -⟩ := grid_facts t
  have tv : t.val = 8 * (i 0).val + (i 1).val / 512 := rfl
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- After the run the result array is the specification's function of the two arguments. -/
theorem final (c : Dev nD) : (dats m 0 c).arrAt 3 cfg0.N = G (argX m c) (argW m c) :=
  (dats m 0 c).arrAt_eq_of_cover 3 _ (fun t _ => flushed_eq m c t) cover

/-- The run, read: the result is the specification's, the arguments are unchanged. -/
theorem run_value : θ_run defs (onTc (τ := τ) (main (F := Ideal))) ⟨m, fun _ => 0, ρ⟩ (fun r => ∀ c : Dev nD,
      r.2.mem ((c.tc : Thread nD τ).loc main_v2) = G (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_main m ρ)

end Cert.KernelIdeal.Tap

end
-- ==== Proof.RefTap.lean ====
/-
  The reference computes the four-tap sum.

  It multiplies every row of X with every row of W at once, reads the 4096 products of a row as four bands of 1024,
  takes band i of rows 0 … 4095 − i, puts i zero rows in front of it, and adds the four arrays in order. Read at an
  entry (b, t, e): band i of row t' is the inner product of row t' of X with row 1024·i + e of W; shifted down i rows
  it is that at t' = t − i when t ≥ i, and the padding zero before; so the sum is the specification's.
-/
import proofs.«118706_j13357348290662_1_alg».proof.Proof.Gen.ReferenceIdeal.Read
import proofs.«118706_j13357348290662_1_alg».proof.Proof.TapSpec
import Idealize.ShloMosaic.Lib.KernelVsHost

set_option maxRecDepth 16384

noncomputable section

namespace Cert.ReferenceIdeal.RefTap

open Cert.ReferenceIdeal Cert.ReferenceIdeal.Gen Cert.ReferenceIdeal.Read Idealize.ShloMosaic Idealize.ShloMosaic.ValueIdx Cert.TapSpec

variable (X : (⟨S2x4096x1024, .f32⟩ : BufTy).Contents (Elt Ideal)) (W : (⟨S4096x1024, .f32⟩ : BufTy).Contents (Elt Ideal))

/-! ## The four-band array: band i of row t is that row of X against rows 1024·i … of W -/

/-- Entry (b, t, i, e) of the four-band array is entry (b, t, 1024·i + e) of the product. -/
theorem idx1_ix (b : Fin 2) (t : Fin 4096) (i : Fin 4) (e : Fin 1024) :
    idx_main_v1 (ix4 b t i e) = ix3 b t (⟨i.val * 1024 + e.val, by omega⟩ : Fin 4096) := by
  have hb := b.isLt; have ht := t.isLt; have hi := i.isLt; have he := e.isLt
  funext a; apply Fin.ext
  match a with
  | ⟨0, _⟩ => dsimp only [idx_main_v1, ix3, ix4]; omega
  | ⟨1, _⟩ => dsimp only [idx_main_v1, ix3, ix4]; omega
  | ⟨2, _⟩ => dsimp only [idx_main_v1, ix3, ix4]; omega

theorem bandOf (b : Fin 2) (t : Fin 4096) (i : Fin 4) (e : Fin 1024) :
    val_main_v1 (F := Ideal) X W (ix4 b t i e)
      = ∑ k : Fin 1024, X (ix3 b t k) * W (ix2 (⟨i.val * 1024 + e.val, by omega⟩ : Fin 4096) k) := by
  rw [val_main_v1_apply, idx1_ix, val_main_v0_apply]
  refine Finset.sum_congr rfl fun k _ => ?_
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-! ## Band i cut out, as an array of its own -/

/-- Row t, band entry e, of the [2, 4096, 1024] reshape is entry (b, t, 0, e) of the [2, 4096, 1, 1024] slice, -/
theorem idx3_ix (b : Fin 2) (t : Fin 4096) (e : Fin 1024) : idx_main_v3 (ix3 b t e) = ix4 b t (0 : Fin 1) e := by
  have hb := b.isLt; have ht := t.isLt; have he := e.isLt
  funext a; apply Fin.ext
  match a with
  | ⟨0, _⟩ => dsimp only [idx_main_v3, ix3, ix4]; omega
  | ⟨1, _⟩ => dsimp only [idx_main_v3, ix3, ix4]; omega
  | ⟨2, _⟩ => rfl
  | ⟨3, _⟩ => dsimp only [idx_main_v3, ix3, ix4]; omega
/-- which is entry (b, t, 0, e) of the four-band array. -/
theorem idx2_ix (b : Fin 2) (t : Fin 4096) (e : Fin 1024) :
    idx_main_v2 (ix4 b t (0 : Fin 1) e) = ix4 b (⟨t.val, by omega⟩ : Fin 4096) (0 : Fin 4) e := by
  funext a; apply Fin.ext
  match a with
  | ⟨0, _⟩ => rfl
  | ⟨1, _⟩ => rfl
  | ⟨2, _⟩ => rfl
  | ⟨3, _⟩ => rfl

theorem band0 (b : Fin 2) (t : Fin 4096) (e : Fin 1024) :
    val_main_v3 (F := Ideal) X W (ix3 b t e)
      = ∑ k : Fin 1024, X (ix3 b (⟨t.val, by omega⟩ : Fin 4096) k) * W (ix2 (⟨0 * 1024 + e.val, by omega⟩ : Fin 4096) k) := by
  rw [val_main_v3_apply, idx3_ix, val_main_v2_apply, idx2_ix]
  exact bandOf X W b _ 0 e

/-- Row t, band entry e, of the [2, 4095, 1024] reshape is entry (b, t, 0, e) of the [2, 4095, 1, 1024] slice, -/
theorem idx5_ix (b : Fin 2) (t : Fin 4095) (e : Fin 1024) : idx_main_v5 (ix3 b t e) = ix4 b t (0 : Fin 1) e := by
  have hb := b.isLt; have ht := t.isLt; have he := e.isLt
  funext a; apply Fin.ext
  match a with
  | ⟨0, _⟩ => dsimp only [idx_main_v5, ix3, ix4]; omega
  | ⟨1, _⟩ => dsimp only [idx_main_v5, ix3, ix4]; omega
  | ⟨2, _⟩ => rfl
  | ⟨3, _⟩ => dsimp only [idx_main_v5, ix3, ix4]; omega
/-- which is entry (b, t, 1, e) of the four-band array. -/
theorem idx4_ix (b : Fin 2) (t : Fin 4095) (e : Fin 1024) :
    idx_main_v4 (ix4 b t (0 : Fin 1) e) = ix4 b (⟨t.val, by omega⟩ : Fin 4096) (1 : Fin 4) e := by
  funext a; apply Fin.ext
  match a with
  | ⟨0, _⟩ => rfl
  | ⟨1, _⟩ => rfl
  | ⟨2, _⟩ => rfl
  | ⟨3, _⟩ => rfl

theorem band1 (b : Fin 2) (t : Fin 4095) (e : Fin 1024) :
    val_main_v5 (F := Ideal) X W (ix3 b t e)
      = ∑ k : Fin 1024, X (ix3 b (⟨t.val, by omega⟩ : Fin 4096) k) * W (ix2 (⟨1 * 1024 + e.val, by omega⟩ : Fin 4096) k) := by
  rw [val_main_v5_apply, idx5_ix, val_main_v4_apply, idx4_ix]
  exact bandOf X W b _ 1 e

/-- Row t, band entry e, of the [2, 4094, 1024] reshape is entry (b, t, 0, e) of the [2, 4094, 1, 1024] slice, -/
theorem idx9_ix (b : Fin 2) (t : Fin 4094) (e : Fin 1024) : idx_main_v9 (ix3 b t e) = ix4 b t (0 : Fin 1) e := by
  have hb := b.isLt; have ht := t.isLt; have he := e.isLt
  funext a; apply Fin.ext
  match a with
  | ⟨0, _⟩ => dsimp only [idx_main_v9, ix3, ix4]; omega
  | ⟨1, _⟩ => dsimp only [idx_main_v9, ix3, ix4]; omega
  | ⟨2, _⟩ => rfl
  | ⟨3, _⟩ => dsimp only [idx_main_v9, ix3, ix4]; omega
/-- which is entry (b, t, 2, e) of the four-band array. -/
theorem idx8_ix (b : Fin 2) (t : Fin 4094) (e : Fin 1024) :
    idx_main_v8 (ix4 b t (0 : Fin 1) e) = ix4 b (⟨t.val, by omega⟩ : Fin 4096) (2 : Fin 4) e := by
  funext a; apply Fin.ext
  match a with
  | ⟨0, _⟩ => rfl
  | ⟨1, _⟩ => rfl
  | ⟨2, _⟩ => rfl
  | ⟨3, _⟩ => rfl

theorem band2 (b : Fin 2) (t : Fin 4094) (e : Fin 1024) :
    val_main_v9 (F := Ideal) X W (ix3 b t e)
      = ∑ k : Fin 1024, X (ix3 b (⟨t.val, by omega⟩ : Fin 4096) k) * W (ix2 (⟨2 * 1024 + e.val, by omega⟩ : Fin 4096) k) := by
  rw [val_main_v9_apply, idx9_ix, val_main_v8_apply, idx8_ix]
  exact bandOf X W b _ 2 e

/-- Row t, band entry e, of the [2, 4093, 1024] reshape is entry (b, t, 0, e) of the [2, 4093, 1, 1024] slice, -/
theorem idx13_ix (b : Fin 2) (t : Fin 4093) (e : Fin 1024) : idx_main_v13 (ix3 b t e) = ix4 b t (0 : Fin 1) e := by
  have hb := b.isLt; have ht := t.isLt; have he := e.isLt
  funext a; apply Fin.ext
  match a with
  | ⟨0, _⟩ => dsimp only [idx_main_v13, ix3, ix4]; omega
  | ⟨1, _⟩ => dsimp only [idx_main_v13, ix3, ix4]; omega
  | ⟨2, _⟩ => rfl
  | ⟨3, _⟩ => dsimp only [idx_main_v13, ix3, ix4]; omega
/-- which is entry (b, t, 3, e) of the four-band array. -/
theorem idx12_ix (b : Fin 2) (t : Fin 4093) (e : Fin 1024) :
    idx_main_v12 (ix4 b t (0 : Fin 1) e) = ix4 b (⟨t.val, by omega⟩ : Fin 4096) (3 : Fin 4) e := by
  funext a; apply Fin.ext
  match a with
  | ⟨0, _⟩ => rfl
  | ⟨1, _⟩ => rfl
  | ⟨2, _⟩ => rfl
  | ⟨3, _⟩ => rfl

theorem band3 (b : Fin 2) (t : Fin 4093) (e : Fin 1024) :
    val_main_v13 (F := Ideal) X W (ix3 b t e)
      = ∑ k : Fin 1024, X (ix3 b (⟨t.val, by omega⟩ : Fin 4096) k) * W (ix2 (⟨3 * 1024 + e.val, by omega⟩ : Fin 4096) k) := by
  rw [val_main_v13_apply, idx13_ix, val_main_v12_apply, idx12_ix]
  exact bandOf X W b _ 3 e

/-! ## The shifted bands are the taps -/

theorem shifted0 (b : Fin 2) (t : Fin 4096) (e : Fin 1024) :
    val_main_v3 (F := Ideal) X W (ix3 b t e) = tap X W 0 b t e := by
  rw [tap_of_le X W 0 b t e (Nat.zero_le _)]
  exact band0 X W b t e

/-- The band shifted down 1 row with zeros in front is tap 1. -/
theorem shifted1 (b : Fin 2) (t : Fin 4096) (e : Fin 1024) :
    val_main_v6 (F := Ideal) X W (ix3 b t e) = tap X W 1 b t e := by
  have hb := b.isLt; have ht := t.isLt; have he := e.isLt
  unfold val_main_v6
  by_cases h : 1 ≤ t.val
  · rw [tap_of_le X W 1 b t e h]
    refine (pad_apply_of_inside (![0, 1, 0] : Fin 3 → Nat) ![0, 0, 0] ![0, 0, 0] (val_main_v5 (F := Ideal) X W) (val_main_call0_v0 (F := Ideal))
      pads_S2x4095x1024_S2x4096x1024_000_100_000 h_S_ (ix3 b t e) (ix3 b (⟨t.val - 1, by omega⟩ : Fin 4095) e) (fun a => ?_)).trans ?_
    · match a with
      | ⟨0, _⟩ => show b.val = 0 + b.val * (0 + 1); omega
      | ⟨1, _⟩ => show t.val = 1 + (t.val - 1) * (0 + 1); omega
      | ⟨2, _⟩ => show e.val = 0 + e.val * (0 + 1); omega
    · exact band1 X W b _ e
  · rw [tap_of_lt X W 1 b t e (by omega)]
    refine (pad_apply_of_not_inside (![0, 1, 0] : Fin 3 → Nat) ![0, 0, 0] ![0, 0, 0] (val_main_v5 (F := Ideal) X W) (val_main_call0_v0 (F := Ideal))
      pads_S2x4095x1024_S2x4096x1024_000_100_000 h_S_ (ix3 b t e) (1 : Fin 3) (fun hh => h hh.1)).trans ?_
    show Scalar.sitofp (F := Ideal) .f32 (0#32 : BitVec 32) = 0
    rw [Ideal.scalar_sitofp_def]; simp

/-- The band shifted down 2 rows with zeros in front is tap 2. -/
theorem shifted2 (b : Fin 2) (t : Fin 4096) (e : Fin 1024) :
    val_main_v10 (F := Ideal) X W (ix3 b t e) = tap X W 2 b t e := by
  have hb := b.isLt; have ht := t.isLt; have he := e.isLt
  unfold val_main_v10
  by_cases h : 2 ≤ t.val
  · rw [tap_of_le X W 2 b t e h]
    refine (pad_apply_of_inside (![0, 2, 0] : Fin 3 → Nat) ![0, 0, 0] ![0, 0, 0] (val_main_v9 (F := Ideal) X W) (val_main_call1_v0 (F := Ideal))
      pads_S2x4094x1024_S2x4096x1024_000_200_000 h_S_ (ix3 b t e) (ix3 b (⟨t.val - 2, by omega⟩ : Fin 4094) e) (fun a => ?_)).trans ?_
    · match a with
      | ⟨0, _⟩ => show b.val = 0 + b.val * (0 + 1); omega
      | ⟨1, _⟩ => show t.val = 2 + (t.val - 2) * (0 + 1); omega
      | ⟨2, _⟩ => show e.val = 0 + e.val * (0 + 1); omega
    · exact band2 X W b _ e
  · rw [tap_of_lt X W 2 b t e (by omega)]
    refine (pad_apply_of_not_inside (![0, 2, 0] : Fin 3 → Nat) ![0, 0, 0] ![0, 0, 0] (val_main_v9 (F := Ideal) X W) (val_main_call1_v0 (F := Ideal))
      pads_S2x4094x1024_S2x4096x1024_000_200_000 h_S_ (ix3 b t e) (1 : Fin 3) (fun hh => h hh.1)).trans ?_
    show Scalar.sitofp (F := Ideal) .f32 (0#32 : BitVec 32) = 0
    rw [Ideal.scalar_sitofp_def]; simp

/-- The band shifted down 3 rows with zeros in front is tap 3. -/
theorem shifted3 (b : Fin 2) (t : Fin 4096) (e : Fin 1024) :
    val_main_v14 (F := Ideal) X W (ix3 b t e) = tap X W 3 b t e := by
  have hb := b.isLt; have ht := t.isLt; have he := e.isLt
  unfold val_main_v14
  by_cases h : 3 ≤ t.val
  · rw [tap_of_le X W 3 b t e h]
    refine (pad_apply_of_inside (![0, 3, 0] : Fin 3 → Nat) ![0, 0, 0] ![0, 0, 0] (val_main_v13 (F := Ideal) X W) (val_main_call2_v0 (F := Ideal))
      pads_S2x4093x1024_S2x4096x1024_000_300_000 h_S_ (ix3 b t e) (ix3 b (⟨t.val - 3, by omega⟩ : Fin 4093) e) (fun a => ?_)).trans ?_
    · match a with
      | ⟨0, _⟩ => show b.val = 0 + b.val * (0 + 1); omega
      | ⟨1, _⟩ => show t.val = 3 + (t.val - 3) * (0 + 1); omega
      | ⟨2, _⟩ => show e.val = 0 + e.val * (0 + 1); omega
    · exact band3 X W b _ e
  · rw [tap_of_lt X W 3 b t e (by omega)]
    refine (pad_apply_of_not_inside (![0, 3, 0] : Fin 3 → Nat) ![0, 0, 0] ![0, 0, 0] (val_main_v13 (F := Ideal) X W) (val_main_call2_v0 (F := Ideal))
      pads_S2x4093x1024_S2x4096x1024_000_300_000 h_S_ (ix3 b t e) (1 : Fin 3) (fun hh => h hh.1)).trans ?_
    show Scalar.sitofp (F := Ideal) .f32 (0#32 : BitVec 32) = 0
    rw [Ideal.scalar_sitofp_def]; simp

/-! ## The sum -/

/-- The reference's result is the specification's function of its two arguments. -/
theorem ref_eq : val_main_v15 (F := Ideal) X W = G X W := by
  funext j
  obtain ⟨b, t, e, rfl⟩ : ∃ (b : Fin 2) (t : Fin 4096) (e : Fin 1024), j = ix3 b t e := ⟨j 0, j 1, j 2, eq_ix3 j⟩
  rw [G_ix3, val_main_v15_apply, val_main_v11_apply, val_main_v7_apply, shifted0, shifted1, shifted2, shifted3]
  rfl

end Cert.ReferenceIdeal.RefTap

end
-- ==== Proof.lean ====
/-
  A causal four-tap convolution over rows, computed two ways.

  Both programs take X (two matrices of 4096 rows by 1024) and W (4096 rows by 1024, read as four bands of 1024 rows)
  and return, at entry (b, t, e), the sum over taps i = 0 … 3 of the inner product of row t − i of X's matrix b with
  row 1024·i + e of W, a tap contributing zero on the first i rows.

  The reference forms all 4096 products of every row at once, cuts the four bands, shifts band i down i rows behind
  zero rows and adds. The kernel walks the rows in sixteen blocks of 512; for each it stacks the 8 preceding rows (zeros
  at the start of a matrix) on the block, multiplies four shifted 512-row cuts of the stack by the four bands of the
  transposed weight, and adds the products onto zero. Over the extended reals the two are one function: a change of
  float format is the identity, a sum of products is a sum of products in either grouping, zero times anything is
  zero and zero plus anything is that thing; no law used asks for finite inputs.

  The frames: the kernel reads X through two windows at once, so the two hold half of its share each; every input
  buffer holds its window's block at every grid point, the output block is a function of those, and the program runs
  to its end leaving both arguments as launched. The statement leaves nothing to show for the idealization itself.
-/
import proofs.«118706_j13357348290662_1_alg».proof.Defs
import proofs.«118706_j13357348290662_1_alg».proof.Proof.Gen.Kernel
import proofs.«118706_j13357348290662_1_alg».proof.Proof.Gen.KernelIdeal
import proofs.«118706_j13357348290662_1_alg».proof.Proof.Gen.ReferenceIdeal
import proofs.«118706_j13357348290662_1_alg».proof.Proof.Gen.Pre_finite_inputs
import proofs.«118706_j13357348290662_1_alg».proof.Proof.Gen.ReferenceIdeal.Run
import proofs.«118706_j13357348290662_1_alg».proof.Proof.Gen.ReferenceIdeal.Read
import proofs.«118706_j13357348290662_1_alg».proof.Proof.KLaunch
import proofs.«118706_j13357348290662_1_alg».proof.Proof.KIValue
import proofs.«118706_j13357348290662_1_alg».proof.Proof.RefTap

noncomputable section

namespace Cert.Proof

open Idealize.ShloMosaic Idealize.SL.Sem

theorem frame_k : Cert.frame_Kernel := fun m ρ _ => Cert.Kernel.Tap.frame m ρ

theorem frame_ki : Cert.frame_KernelIdeal := fun m ρ _ => Cert.KernelIdeal.Tap.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the four-tap sum of the (agreeing) arguments. -/
theorem algebraic : Cert.algebraic_KernelIdeal_ReferenceIdeal := by
  intro m ρ m' ρ' _ hagree
  refine ⟨fun c => Cert.TapSpec.G (Cert.KernelIdeal.Tap.argX m c) (Cert.KernelIdeal.Tap.argW m c), Cert.KernelIdeal.Tap.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefTap.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
